-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S4096 : Shape := ⟨1, ![4096]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_arg8 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : IVec S4096 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S4096 : Shape := ⟨1, ![4096]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩
abbrev S4096x1 : Shape := ⟨2, ![4096, 1]⟩
abbrev S4096x64 : Shape := ⟨2, ![4096, 64]⟩

abbrev nBuf : Space → Nat
  | .hbm => 52
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S4096, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096x1, .i32⟩
  | .hbm, ⟨51, _⟩ => ⟨S4096x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S4096 : S_.BroadcastsInDim S4096 (![] : Fin 0 → Fin S4096.rank)
  bcast_S4096_S4096x1_0 : S4096.BroadcastsInDim S4096x1 (![0] : Fin 1 → Fin S4096x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  gather_S100000x64_S4096x1_S4096x64_1_0_n_n_0_1_164_wf : GatherDims.WF S100000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S4096 : Shape := ⟨1, ![4096]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S4096x1 : Shape := ⟨2, ![4096, 1]⟩
abbrev S4096x64 : Shape := ⟨2, ![4096, 64]⟩

abbrev nBuf : Space → Nat
  | .hbm => 76
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S4096, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S_, .f32⟩
  | .hbm, ⟨34, _⟩ => ⟨S100000x64, .f32⟩
  | .hbm, ⟨35, _⟩ => ⟨S100000x64, .i1⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S_, .f32⟩
  | .hbm, ⟨61, _⟩ => ⟨S100000x64, .f32⟩
  | .hbm, ⟨62, _⟩ => ⟨S100000x64, .i1⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S4096, .i32⟩
  | .hbm, ⟨69, _⟩ => ⟨S4096, .i1⟩
  | .hbm, ⟨70, _⟩ => ⟨S_, .i32⟩
  | .hbm, ⟨71, _⟩ => ⟨S4096, .i32⟩
  | .hbm, ⟨72, _⟩ => ⟨S4096, .i32⟩
  | .hbm, ⟨73, _⟩ => ⟨S4096, .i32⟩
  | .hbm, ⟨74, _⟩ => ⟨S4096x1, .i32⟩
  | .hbm, ⟨75, _⟩ => ⟨S4096x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v37 : Ref sig .tc := ⟨.hbm, 66, rfl⟩
abbrev main_c_6 : Ref sig .tc := ⟨.hbm, 67, rfl⟩
abbrev main_v38 : Ref sig .tc := ⟨.hbm, 68, rfl⟩
abbrev main_v39 : Ref sig .tc := ⟨.hbm, 69, rfl⟩
abbrev main_c_7 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S4096 : S_.BroadcastsInDim S4096 (![] : Fin 0 → Fin S4096.rank)
  bcast_S4096_S4096x1_0 : S4096.BroadcastsInDim S4096x1 (![0] : Fin 1 → Fin S4096x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S100000x64_S4096x1_S4096x64_1_0_n_n_0_1_164_wf : GatherDims.WF S100000x64 S4096x1 S4096x64 [1] [0] [] [0] [] 1 ![1, 64]

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf

class Facts : Prop extends Facts₀ where

variable [Facts]
-- ==== Proof.Chain.lean ====
/-
  The host operations the kernel's program applies around its dense products, each as ONE named function of the
  arrays it reads: the two rows of the edge list (`src`, `dst`), an index column with negative entries wrapped by the
  node count (`wrapE`, `wrapB`), the neighbour sum `agg` (gather the source rows, scatter-add them at the destinations
  into zeros) and the final row selection `pick`. Nothing here is opened by the proof: both programs apply the same
  operations, so only the arrays going in are compared.
-/
import proofs.«424615_j39058432590434_3_alg».proof.KernelIdeal

noncomputable section

namespace Cert.KernelIdeal.Hand

open Cert.KernelIdeal Idealize.ShloMosaic Idealize.ShloMosaic.TcCoe Idealize.SL.Sem

variable {F : FTy → Type} [FloatOps F] [hP : Cert.KernelIdeal.Facts]
open Cert.KernelIdeal.Facts₀ Cert.KernelIdeal.Facts

/-- The edge list's first row: the source node of every edge. -/
def src (ei : IVec S2x1600000 32) : IVec S1600000 32 :=
  shapeCast S1600000 (extractStridedSlice S1x1600000 ![0, 0] ei slices_S2x1600000_S1x1600000_0_0) shapeCasts_S1x1600000_S1600000

/-- The edge list's second row: the destination node of every edge. -/
def dst (ei : IVec S2x1600000 32) : IVec S1600000 32 :=
  shapeCast S1600000 (extractStridedSlice S1x1600000 ![1, 0] ei slices_S2x1600000_S1x1600000_1_0) shapeCasts_S1x1600000_S1600000

/-- A column of edge indices, a negative one moved up by the node count. -/
def wrapE (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- A column of the selected nodes' indices, a negative one moved up by the node count. -/
def wrapB (idx : IVec S4096 32) : IVec S4096x1 32 :=
  broadcastInDim S4096x1 ![0] bcast_S4096_S4096x1_0
    (select (cmpi .slt idx (broadcastInDim S4096 ![] bcast_S_S4096 (constantI S_ 32 0#32)))
      (addi idx (broadcastInDim S4096 ![] bcast_S_S4096 (constantI S_ 32 100000#32))) idx)

/-- The neighbour sum: row `n` is the sum of `feat`'s rows at the sources of the edges that end at `n`. -/
def agg (feat : FVec F S100000x64 .f32) (ei : IVec S2x1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dst ei))
    (Host.gather gather_S100000x64_S1600000x1_S1600000x64_1_0_n_n_0_1_164 feat (wrapE (src ei)))

/-- The rows of `h` at the selected nodes. -/
def pick (h : FVec F S100000x64 .f32) (bbox : IVec S4096 32) : FVec F S4096x64 .f32 :=
  Host.gather gather_S100000x64_S4096x1_S4096x64_1_0_n_n_0_1_164 h (wrapB bbox)

/-- A bias vector as one row. -/
def biasRow (b : FVec F S64 .f32) : FVec F S1x64 .f32 := shapeCast S1x64 b shapeCasts_S64_S1x64

end Cert.KernelIdeal.Hand

end
-- ==== Proof.Dense.lean ====
/-
  The dense half of a GraphConv layer followed by the leaky rectifier, as ONE function of its operands, index by index,
  on the extended reals: row `p`, column `q` of the result is

      leak ( (Σ_k agg[p,k] · wrel[k,q]  +  b[0,q])  +  Σ_k feat[p,k] · wroot[k,q] )

  with `leak t = t` where `t ≥ 0` and `slope · t` elsewhere, `slope` the value of the f32 word `0x3C23D70A`. The
  row count `M` is a parameter: a row block of the operands gives the same rows of the result (`rowsOut_rows`), which is
  all that ties a kernel tiled over rows to the whole-array product.
-/
import Idealize.ShloMosaic.PureOps.Ideal
import Idealize.ShloMosaic.PureOps.Ideal.Laws
import Idealize.ShloMosaic.Lib.ValueIdx

noncomputable section

namespace GraphConv

open Idealize.ShloMosaic Idealize.ShloMosaic.ValueIdx

/-- The leaky rectifier at one extended real: the comparison with the zero word decides between `t` and the slope
    word's value times `t`. -/
def leak (t : Ideal .f32) : Ideal .f32 :=
  Scalar.select (FloatOps.cmpf .oge t (Scalar.ofBits .f32 0x00000000#32)) t
    (FloatOps.mulf (Scalar.ofBits .f32 0x3C23D70A#32) t)

/-- Entry `(p, q)` before the rectifier: the aggregated row times the relation weights, plus the bias, plus the node's
    own row times the root weights — in this order of additions. -/
def pre {M : Nat} (agg feat : FVec Ideal ⟨2, ![M, 64]⟩ .f32) (wrel : FVec Ideal ⟨2, ![64, 64]⟩ .f32)
    (b : FVec Ideal ⟨2, ![1, 64]⟩ .f32) (wroot : FVec Ideal ⟨2, ![64, 64]⟩ .f32) (p : Fin M) (q : Fin 64) : Ideal .f32 :=
  ((∑ k : Fin 64, agg (ix2 p k) * wrel (ix2 k q)) + b (ix2 (0 : Fin 1) q)) + ∑ k : Fin 64, feat (ix2 p k) * wroot (ix2 k q)

/-- The layer's dense half on `M` rows. -/
def rowsOut {M : Nat} (agg feat : FVec Ideal ⟨2, ![M, 64]⟩ .f32) (wrel : FVec Ideal ⟨2, ![64, 64]⟩ .f32)
    (b : FVec Ideal ⟨2, ![1, 64]⟩ .f32) (wroot : FVec Ideal ⟨2, ![64, 64]⟩ .f32) : FVec Ideal ⟨2, ![M, 64]⟩ .f32 :=
  fun i => leak (pre agg feat wrel b wroot (i 0) (i 1))

theorem rowsOut_apply {M : Nat} (agg feat : FVec Ideal ⟨2, ![M, 64]⟩ .f32) (wrel : FVec Ideal ⟨2, ![64, 64]⟩ .f32)
    (b : FVec Ideal ⟨2, ![1, 64]⟩ .f32) (wroot : FVec Ideal ⟨2, ![64, 64]⟩ .f32) (p : Fin M) (q : Fin 64) :
    rowsOut agg feat wrel b wroot (ix2 p q) = leak (pre agg feat wrel b wroot p q) := rfl

/-- ROWS OF THE RESULT NEED ONLY THE SAME ROWS OF THE OPERANDS: if `agg'`, `feat'` are rows `r p` of `agg`, `feat`, the
    result on them is rows `r p` of the result. -/
theorem rowsOut_rows {M M' : Nat} (r : Fin M' → Fin M) (agg feat : FVec Ideal ⟨2, ![M, 64]⟩ .f32)
    (agg' feat' : FVec Ideal ⟨2, ![M', 64]⟩ .f32) (wrel : FVec Ideal ⟨2, ![64, 64]⟩ .f32)
    (b : FVec Ideal ⟨2, ![1, 64]⟩ .f32) (wroot : FVec Ideal ⟨2, ![64, 64]⟩ .f32)
    (ha : ∀ p k, agg' (ix2 p k) = agg (ix2 (r p) k)) (hf : ∀ p k, feat' (ix2 p k) = feat (ix2 (r p) k))
    (p : Fin M') (q : Fin 64) :
    rowsOut agg' feat' wrel b wroot (ix2 p q) = rowsOut agg feat wrel b wroot (ix2 (r p) q) := by
  rw [rowsOut_apply, rowsOut_apply]
  unfold pre
  simp only [ha, hf]

end GraphConv

end
-- ==== Proof.KerBlocks0.lean ====
/-
  What each of the two pipelined calls leaves in its output array, as ONE function of the arrays the call finds when it
  is entered (`V`): the layer's dense half `GraphConv.rowsOut` of the aggregated array, the feature array, the two weight
  matrices and the bias row. Grid point `t` of ten works on rows `10000·t … 10000·t + 9999`: its two row-block windows
  read those rows of their arrays, its three small windows read their whole arrays, and the block it writes back is
  those rows of the result — which need only those rows of the operands (`GraphConv.rowsOut_rows`). The ten blocks tile
  the array, so after the last write-back the array is the function on all rows.
  The body's arithmetic enters as a hypothesis `hpay` (the payload is `rowsOut` of its loaded blocks), proved elsewhere.
-/
import proofs.«424615_j39058432590434_3_alg».proof.Proof.Gen.KernelIdeal.Frame
import proofs.«424615_j39058432590434_3_alg».proof.Proof.Dense
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Row `p` of grid point `t`'s block is row `10000·t + p` of the array. -/
def rowAt (t p : Nat) (ht : t < 10) (hp : p < 10000) : Fin 100000 := ⟨t * 10000 + p, by omega⟩

/-! ## The first call -/

/-- The first call's index maps over the grid: the row-block windows sit at block row `t`, the others at block 0. -/
theorem idx0 : ∀ t : Fin cfg0.N, t.val < 10
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The arrays the first call finds, by their literal types. -/
abbrev aggArr0 (c : Dev nD) : FVec Ideal S100000x64 .f32 := V c main_v13
abbrev featArr0 (c : Dev nD) : FVec Ideal S100000x64 .f32 := V c main_arg0
abbrev wrelArr0 (c : Dev nD) : FVec Ideal S64x64 .f32 := V c main_arg3
abbrev biasArr0 (c : Dev nD) : FVec Ideal S1x64 .f32 := V c main_v14
abbrev wrootArr0 (c : Dev nD) : FVec Ideal S64x64 .f32 := V c main_arg5

/-- What the first call's output array ends holding. -/
abbrev G0 (c : Dev nD) : FVec Ideal S100000x64 .f32 :=
  GraphConv.rowsOut (M := 100000) (aggArr0 V c) (featArr0 V c) (wrelArr0 V c) (biasArr0 V c) (wrootArr0 V c)

/-- The aggregated array's block at point `t` is its rows from `10000·t`. -/
theorem blk0_0 (c : Dev nD) (t : Fin cfg0.N) (p : Fin 10000) (k : Fin 64) :
    (iblk0 V c 0 t : Vec Ideal S10000x64 .f32) (ix2 p k) = aggArr0 V c (ix2 (rowAt t.val p.val (idx0 t).1 p.isLt) k) := by
  obtain ⟨-, e0, e1, -⟩ := idx0 t
  unfold iblk0
  rw [View.read_apply]
  show V c main_v13 _ = V c main_v13 _
  congr 1
  funext a
  apply Fin.ext
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- The feature array's block at point `t` is its rows from `10000·t`. -/
theorem blk0_1 (c : Dev nD) (t : Fin cfg0.N) (p : Fin 10000) (k : Fin 64) :
    (iblk0 V c 1 t : Vec Ideal S10000x64 .f32) (ix2 p k) = featArr0 V c (ix2 (rowAt t.val p.val (idx0 t).1 p.isLt) k) := by
  obtain ⟨-, -, -, e0, e1, -⟩ := idx0 t
  unfold iblk0
  rw [View.read_apply]
  show V c main_arg0 _ = V c main_arg0 _
  congr 1
  funext a
  apply Fin.ext
  match a with
  | ⟨0, _⟩ => show win0_1.index t (0 : Fin 2) * 10000 + 1 * p.val = t.val * 10000 + p.val; rw [e0]; omega
  | ⟨1, _⟩ => show win0_1.index t (1 : Fin 2) * 64 + 1 * k.val = k.val; rw [e1]; omega

/-- The relation weights' one block is the whole matrix. -/
theorem blk0_2 (c : Dev nD) (t : Fin cfg0.N) : (iblk0 V c 2 t : Vec Ideal S64x64 .f32) = wrelArr0 V c := by
  obtain ⟨-, -, -, -, -, e0, e1, -⟩ := idx0 t
  funext y
  unfold iblk0
  rw [View.read_apply]
  show V c main_arg3 _ = V c main_arg3 _
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The bias row's one block is the whole row. -/
theorem blk0_3 (c : Dev nD) (t : Fin cfg0.N) : (iblk0 V c 3 t : Vec Ideal S1x64 .f32) = biasArr0 V c := by
  obtain ⟨-, -, -, -, -, -, -, e0, e1, -⟩ := idx0 t
  funext y
  unfold iblk0
  rw [View.read_apply]
  show V c main_v14 _ = V c main_v14 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The root weights' one block is the whole matrix. -/
theorem blk0_4 (c : Dev nD) (t : Fin cfg0.N) : (iblk0 V c 4 t : Vec Ideal S64x64 .f32) = wrootArr0 V c := by
  obtain ⟨-, -, -, -, -, -, -, -, -, e0, e1, -⟩ := idx0 t
  funext y
  unfold iblk0
  rw [View.read_apply]
  show V c main_arg5 _ = V c main_arg5 _
  congr 1
  funext a
  apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- WHAT POINT `t` WRITES BACK is block `t` of `G0`. -/
theorem flushed0 (hpay : ∀ (v0 v4 : Vec Ideal S10000x64 .f32) (v2 v5 : Vec Ideal S64x64 .f32) (v7 : Vec Ideal S1x64 .f32),
      k0_pay1 (F := Ideal) v0 v2 v4 v5 v7 = GraphConv.rowsOut (M := 10000) v0 v4 v2 v7 v5)
    (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  unfold out0_5
  rw [View.canon_unit_zero hz2]
  simp only [View.ld_unit_zero (S := S10000x64) hz2, View.ld_unit_zero (S := S64x64) hz2, View.ld_unit_zero (S := S1x64) hz2]
  rw [hpay, blk0_2, blk0_3, blk0_4]
  funext y
  obtain ⟨p, q, rfl⟩ : ∃ (p : Fin 10000) (q : Fin 64), y = ix2 p q := ⟨y 0, y 1, eq_ix2 y⟩
  obtain ⟨ht, -, -, -, -, -, -, -, -, -, -, e0, e1⟩ := idx0 t
  rw [View.read_apply]
  have hemb : ((cfg0.win 5).blk t).view.emb (ix2 p q) = (ix2 (rowAt t.val p.val ht p.isLt) q : S100000x64.Idx) := by
    funext a
    apply Fin.ext
    match a with
    | ⟨0, _⟩ => show win0_5.index t (0 : Fin 2) * 10000 + 1 * p.val = t.val * 10000 + p.val; rw [e0]; omega
    | ⟨1, _⟩ => show win0_5.index t (1 : Fin 2) * 64 + 1 * q.val = q.val; rw [e1]; omega
  show GraphConv.rowsOut (M := 10000) _ _ _ _ _ (ix2 p q) = G0 V c (((cfg0.win 5).blk t).view.emb (ix2 p q))
  rw [hemb]
  exact GraphConv.rowsOut_rows (fun p' : Fin 10000 => rowAt t.val p'.val ht p'.isLt) (aggArr0 V c) (featArr0 V c) _ _ _ _ _
    (fun p' k => blk0_0 V c t p' k) (fun p' k => blk0_1 V c t p' k) p q

/-- An index of the array is in point `t`'s block iff each coordinate is in the block's range on its axis. -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v15).slice (win0_5.rect t)).set ↔ _
  rw [View.set_slice_whole, Rect.mem_set_unit]
  exact Iff.rfl

/-- Every row lies in the block of the point its thousands-of-ten count names: the ten blocks tile the array. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, -, -, -, -, -, -, -, e0, e1⟩ := idx0 t
  have ht : t.val = (i 0).val / 10000 := rfl
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; rw [e0, ht]; omega
  | ⟨1, _⟩ => show win0_5.index t (1 : Fin 2) * 64 ≤ (i 1).val ∧ (i 1).val < win0_5.index t (1 : Fin 2) * 64 + 64; rw [e1]; omega

/-- THE FIRST CALL'S OUTPUT ARRAY after its last write-back: the dense half of the layer on all rows. -/
theorem arr0 (hpay : ∀ (v0 v4 : Vec Ideal S10000x64 .f32) (v2 v5 : Vec Ideal S64x64 .f32) (v7 : Vec Ideal S1x64 .f32),
      k0_pay1 (F := Ideal) v0 v2 v4 v5 v7 = GraphConv.rowsOut (M := 10000) v0 v4 v2 v7 v5)
    (c : Dev nD) : (dat0 (F := Ideal) V c).arrAt 5 cfg0.N = G0 V c :=
  (dat0 (F := Ideal) V c).arrAt_eq_of_cover 5 (G0 V c) (fun t _ => flushed0 V hpay c t) (cover0)

end Cert.KernelIdeal.Hand

end
-- ==== Proof.KerBlocks1.lean ====
/-
  The second pipelined call's output array as one function of the arrays it finds at its entry: the same statements
  as for the first call, over the second call's windows and arrays.
-/
import proofs.«424615_j39058432590434_3_alg».proof.Proof.KerBlocks0

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The second call -/

/-- The second call's index maps over the grid: the row-block windows sit at block row `t`, the others at block 0. -/
theorem idx1 : ∀ t : Fin cfg1.N, t.val < 10
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The arrays the second call finds, by their literal types. -/
abbrev aggArr1 (c : Dev nD) : FVec Ideal S100000x64 .f32 := V c main_v25
abbrev featArr1 (c : Dev nD) : FVec Ideal S100000x64 .f32 := V c main_v15
abbrev wrelArr1 (c : Dev nD) : FVec Ideal S64x64 .f32 := V c main_arg6
abbrev biasArr1 (c : Dev nD) : FVec Ideal S1x64 .f32 := V c main_v26
abbrev wrootArr1 (c : Dev nD) : FVec Ideal S64x64 .f32 := V c main_arg8

/-- What the second call's output array ends holding. -/
abbrev G1 (c : Dev nD) : FVec Ideal S100000x64 .f32 :=
  GraphConv.rowsOut (M := 100000) (aggArr1 V c) (featArr1 V c) (wrelArr1 V c) (biasArr1 V c) (wrootArr1 V c)

/-- The aggregated array's block at point `t` is its rows from `10000·t`. -/
theorem blk1_0 (c : Dev nD) (t : Fin cfg1.N) (p : Fin 10000) (k : Fin 64) :
    (iblk1 V c 0 t : Vec Ideal S10000x64 .f32) (ix2 p k) = aggArr1 V c (ix2 (rowAt t.val p.val (idx1 t).1 p.isLt) k) := by
  obtain ⟨-, e0, e1, -⟩ := idx1 t
  unfold iblk1
  rw [View.read_apply]
  show V c main_v25 _ = V c main_v25 _
  congr 1
  funext a
  apply Fin.ext
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

/-- The feature array's block at point `t` is its rows from `10000·t`. -/
theorem blk1_1 (c : Dev nD) (t : Fin cfg1.N) (p : Fin 10000) (k : Fin 64) :
    (iblk1 V c 1 t : Vec Ideal S10000x64 .f32) (ix2 p k) = featArr1 V c (ix2 (rowAt t.val p.val (idx1 t).1 p.isLt) k) := by
  obtain ⟨-, -, -, e0, e1, -⟩ := idx1 t
  unfold iblk1
  rw [View.read_apply]
  show V c main_v15 _ = V c main_v15 _
  congr 1
  funext a
  apply Fin.ext
  match a with
  | ⟨0, _⟩ => show win1_1.index t (0 : Fin 2) * 10000 + 1 * p.val = t.val * 10000 + p.val; rw [e0]; omega
  | ⟨1, _⟩ => show win1_1.index t (1 : Fin 2) * 64 + 1 * k.val = k.val; rw [e1]; omega

/-- The relation weights' one block is the whole matrix. -/
theorem blk1_2 (c : Dev nD) (t : Fin cfg1.N) : (iblk1 V c 2 t : Vec Ideal S64x64 .f32) = wrelArr1 V c := by
  obtain ⟨-, -, -, -, -, e0, e1, -⟩ := idx1 t
  funext y
  unfold iblk1
  rw [View.read_apply]
  show V c main_arg6 _ = V c main_arg6 _
  congr 1
  funext a
  apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- The bias row's one block is the whole row. -/
theorem blk1_3 (c : Dev nD) (t : Fin cfg1.N) : (iblk1 V c 3 t : Vec Ideal S1x64 .f32) = biasArr1 V c := by
  obtain ⟨-, -, -, -, -, -, -, e0, e1, -⟩ := idx1 t
  funext y
  unfold iblk1
  rw [View.read_apply]
  show V c main_v26 _ = V c main_v26 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- The root weights' one block is the whole matrix. -/
theorem blk1_4 (c : Dev nD) (t : Fin cfg1.N) : (iblk1 V c 4 t : Vec Ideal S64x64 .f32) = wrootArr1 V c := by
  obtain ⟨-, -, -, -, -, -, -, -, -, e0, e1, -⟩ := idx1 t
  funext y
  unfold iblk1
  rw [View.read_apply]
  show V c main_arg8 _ = V c main_arg8 _
  congr 1
  funext a
  apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- WHAT POINT `t` WRITES BACK is block `t` of `G1`. -/
theorem flushed1 (hpay : ∀ (v0 v4 : Vec Ideal S10000x64 .f32) (v2 v6 : Vec Ideal S64x64 .f32) (v8 : Vec Ideal S1x64 .f32),
      k1_pay1 (F := Ideal) v0 v2 v4 v6 v8 = GraphConv.rowsOut (M := 10000) v0 v4 v2 v8 v6)
    (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz2]
  simp only [View.ld_unit_zero (S := S10000x64) hz2, View.ld_unit_zero (S := S64x64) hz2, View.ld_unit_zero (S := S1x64) hz2]
  rw [hpay, blk1_2, blk1_3, blk1_4]
  funext y
  obtain ⟨p, q, rfl⟩ : ∃ (p : Fin 10000) (q : Fin 64), y = ix2 p q := ⟨y 0, y 1, eq_ix2 y⟩
  obtain ⟨ht, -, -, -, -, -, -, -, -, -, -, e0, e1⟩ := idx1 t
  rw [View.read_apply]
  have hemb : ((cfg1.win 5).blk t).view.emb (ix2 p q) = (ix2 (rowAt t.val p.val ht p.isLt) q : S100000x64.Idx) := by
    funext a
    apply Fin.ext
    match a with
    | ⟨0, _⟩ => show win1_5.index t (0 : Fin 2) * 10000 + 1 * p.val = t.val * 10000 + p.val; rw [e0]; omega
    | ⟨1, _⟩ => show win1_5.index t (1 : Fin 2) * 64 + 1 * q.val = q.val; rw [e1]; omega
  show GraphConv.rowsOut (M := 10000) _ _ _ _ _ (ix2 p q) = G1 V c (((cfg1.win 5).blk t).view.emb (ix2 p q))
  rw [hemb]
  exact GraphConv.rowsOut_rows (fun p' : Fin 10000 => rowAt t.val p'.val ht p'.isLt) (aggArr1 V c) (featArr1 V c) _ _ _ _ _
    (fun p' k => blk1_0 V c t p' k) (fun p' k => blk1_1 V c t p' k) p q

/-- An index of the array is in point `t`'s block iff each coordinate is in the block's range on its axis. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v27).slice (win1_5.rect t)).set ↔ _
  rw [View.set_slice_whole, Rect.mem_set_unit]
  exact Iff.rfl

/-- Every row lies in the block of the point its thousands-of-ten count names: the ten blocks tile the array. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨-, -, -, -, -, -, -, -, -, -, -, e0, e1⟩ := idx1 t
  have ht : t.val = (i 0).val / 10000 := rfl
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; rw [e0, ht]; omega
  | ⟨1, _⟩ => show win1_5.index t (1 : Fin 2) * 64 ≤ (i 1).val ∧ (i 1).val < win1_5.index t (1 : Fin 2) * 64 + 64; rw [e1]; omega

/-- THE SECOND CALL'S OUTPUT ARRAY after its last write-back: the dense half of the layer on all rows. -/
theorem arr1 (hpay : ∀ (v0 v4 : Vec Ideal S10000x64 .f32) (v2 v6 : Vec Ideal S64x64 .f32) (v8 : Vec Ideal S1x64 .f32),
      k1_pay1 (F := Ideal) v0 v2 v4 v6 v8 = GraphConv.rowsOut (M := 10000) v0 v4 v2 v8 v6)
    (c : Dev nD) : (dat1 (F := Ideal) V c).arrAt 5 cfg1.N = G1 V c :=
  (dat1 (F := Ideal) V c).arrAt_eq_of_cover 5 (G1 V c) (fun t _ => flushed1 V hpay c t) (cover1)

end Cert.KernelIdeal.Hand

end
-- ==== Proof.LibPlainMatmul.lean ====
/-
  The plain product of an m×k matrix by a k×n matrix, read at an index on the extended reals: entry (a, b) is the sum
  over the contracted coordinate c of A[a, c] · B[c, b], whether the product is the kernel's matrix multiply into a
  zero accumulator or the host's `dot_general`. And a dimension record that lists the same six axis lists as the plain
  record is the plain record, whatever proof of its conditions it carries.
-/
import Idealize.ShloMosaic.PureOps.Ideal
import Idealize.ShloMosaic.PureOps.Ideal.Laws
import Idealize.ShloMosaic.Lib.ValueIdx
import Idealize.ShloMosaic.Lib.StackMember

noncomputable section

namespace PlainMatmul

open Idealize.ShloMosaic Idealize.ShloMosaic.ValueIdx

/-- A matrix multiply with the plain dimension numbers into the zero accumulator, read at `(a, b)`: the sum over the
    contracted coordinate of the products of the entries. Both the multiply into zero and the host's product are the
    same sum over the record's contraction index; the host's is already re-indexed by the contracted coordinate. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [← StackMember.dotGeneral_plain_apply prec A B a b]
  show FloatOps.matmul _ prec A B _ _ = FloatOps.dotGeneral _ prec _ A B _
  rw [Ideal.matmul_constant_zero_apply, Ideal.dotGeneral_apply]

/-- A record with contracting axes `[1]` and `[0]`, free axes `[0]` and `[1]` and no batch axes, over an M×K and a
    K×N matrix, is the plain record: the lists are the same and the conditions are a proposition. -/
theorem plain_of_lists {M K N : Nat}
    (w : DotDims.WF ⟨2, ![M, K]⟩ ⟨2, ![K, N]⟩ ⟨2, ![M, N]⟩ [1] [0] [0] [1] [] []) :
    (⟨[1], [0], [0], [1], [], [], w⟩ : DotDims ⟨2, ![M, K]⟩ ⟨2, ![K, N]⟩ ⟨2, ![M, N]⟩) = DotDims.plain M K N := rfl

/-- The host's product under any record with those six lists, read at `(a, b)`: the same sum. -/
theorem dotGeneral_lists_apply {m k n : Nat} {φ₁ φ₂ : FTy}
    (w : DotDims.WF ⟨2, ![m, k]⟩ ⟨2, ![k, n]⟩ ⟨2, ![m, n]⟩ [1] [0] [0] [1] [] []) (prec : Option ContractPrecision)
    (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  rw [plain_of_lists w]
  exact StackMember.dotGeneral_plain_apply prec A B a b

/-- The multiply into zero under any record with those six lists, read at `(a, b)`: the same sum. -/
theorem matmul_lists_zero_apply {m k n : Nat} {φ₁ φ₂ : FTy}
    (w : DotDims.WF ⟨2, ![m, k]⟩ ⟨2, ![k, n]⟩ ⟨2, ![m, n]⟩ [1] [0] [0] [1] [] []) (prec : Option ContractPrecision)
    (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [plain_of_lists w]
  exact matmul_plain_zero_apply prec A B a b

end PlainMatmul

end
-- ==== Proof.KerPayload.lean ====
/-
  The arithmetic of the kernel's body, read entry by entry on the extended reals: the value each launch stores is the
  dense half of a GraphConv layer on the ten thousand rows it loaded — two plain products into a zero accumulator, the
  bias row added to every row between them, and the leaky rectifier as a comparison with zero, a product with the slope
  and a select. The shape casts in the body are casts to the same shape, hence the identity.
-/
import proofs.«424615_j39058432590434_3_alg».proof.Proof.Gen.KernelIdeal.Skeleton
import proofs.«424615_j39058432590434_3_alg».proof.Proof.Dense
import proofs.«424615_j39058432590434_3_alg».proof.Proof.Chain
import proofs.«424615_j39058432590434_3_alg».proof.Proof.LibPlainMatmul
import Idealize.ShloMosaic.Lib.Pipeline.Value
import Idealize.ShloMosaic.Lib.ValueLayout

noncomputable section

namespace Cert.KernelIdeal.Hand

open Cert.KernelIdeal Idealize.ShloMosaic Idealize.ShloMosaic.ValueIdx Idealize.SL.Sem

variable [hP : Cert.KernelIdeal.Facts]
open Cert.KernelIdeal.Facts₀ Cert.KernelIdeal.Facts

/-- The sum before the rectifier, as the body spells it, at entry `(p, q)`: the aggregated row times the relation
    weights, plus the bias row's entry `q`, plus the node's row times the root weights. -/
theorem preSum_apply (w : DotDims.WF S10000x64 S64x64 S10000x64 [1] [0] [0] [1] [] [])
    (hb : S1x64.Broadcasts S10000x64)
    (a feat : FVec Ideal S10000x64 .f32) (wrel wroot : FVec Ideal S64x64 .f32) (b : FVec Ideal S1x64 .f32)
    (p : Fin 10000) (q : Fin 64) :
    addf (addf (matmul (⟨[1], [0], [0], [1], [], [], w⟩ : DotDims S10000x64 S64x64 S10000x64) none a wrel
            (constant (F := Ideal) S10000x64 .f32 0x00000000#32))
          (broadcastTo S10000x64 b hb))
        (matmul (⟨[1], [0], [0], [1], [], [], w⟩ : DotDims S10000x64 S64x64 S10000x64) none feat wroot
          (constant (F := Ideal) S10000x64 .f32 0x00000000#32)) (ix2 p q)
      = GraphConv.pre (M := 10000) a feat wrel b wroot p q := by
  unfold GraphConv.pre
  rw [addf_apply, addf_apply, PlainMatmul.matmul_lists_zero_apply w none a wrel p q,
    PlainMatmul.matmul_lists_zero_apply w none feat wroot p q, broadcastTo_1b_ab_apply b hb p q]

/-- The rectifier as the body spells it — compare with a broadcast zero, multiply by the broadcast slope, select —
    at an entry is `leak` of the entry. -/
theorem leakVec_apply (t : FVec Ideal S10000x64 .f32) (i : S10000x64.Idx) :
    select (cmpf .oge t (broadcast S10000x64 (Scalar.ofBits (F := Ideal) .f32 0x00000000#32))) t
        (mulf (broadcast S10000x64 (Scalar.ofBits (F := Ideal) .f32 0x3C23D70A#32)) t) i
      = GraphConv.leak (t i) := rfl

/-- THE FIRST LAUNCH'S STORED VALUE is the dense half of the layer on the rows it loaded. -/
theorem pay0_eq (v0 v4 : Vec Ideal S10000x64 .f32) (v2 v5 : Vec Ideal S64x64 .f32) (v7 : Vec Ideal S1x64 .f32) :
    Gen.k0_pay1 (F := Ideal) v0 v2 v4 v5 v7 = GraphConv.rowsOut (M := 10000) v0 v4 v2 v7 v5 := by
  funext i
  obtain ⟨p, q, rfl⟩ : ∃ (p : Fin 10000) (q : Fin 64), i = ix2 p q := ⟨i 0, i 1, eq_ix2 i⟩
  rw [GraphConv.rowsOut_apply, ← preSum_apply Gen.dot_S10000x64_S64x64_S10000x64_1_0_0_1_n_n_wf
    Gen.broadcasts_S1x64_S10000x64 v0 v4 v2 v5 v7 p q, ← leakVec_apply]
  unfold Gen.k0_pay1
  rw [shapeCast_self v0, shapeCast_self v7]
  rfl

/-- THE SECOND LAUNCH'S STORED VALUE likewise (its body casts the node rows to their own shape as well). -/
theorem pay1_eq (v0 v4 : Vec Ideal S10000x64 .f32) (v2 v6 : Vec Ideal S64x64 .f32) (v8 : Vec Ideal S1x64 .f32) :
    Gen.k1_pay1 (F := Ideal) v0 v2 v4 v6 v8 = GraphConv.rowsOut (M := 10000) v0 v4 v2 v8 v6 := by
  funext i
  obtain ⟨p, q, rfl⟩ : ∃ (p : Fin 10000) (q : Fin 64), i = ix2 p q := ⟨i 0, i 1, eq_ix2 i⟩
  rw [GraphConv.rowsOut_apply, ← preSum_apply Gen.dot_S10000x64_S64x64_S10000x64_1_0_0_1_n_n_wf
    Gen.broadcasts_S1x64_S10000x64 v0 v4 v2 v6 v8 p q, ← leakVec_apply]
  unfold Gen.k1_pay1
  rw [shapeCast_self v0, shapeCast_self v4, shapeCast_self v8]
  rfl

/-- The bias vector as one row reads, at `(0, q)`, the vector at `q`. -/
theorem biasRow_apply (b : FVec Ideal S64 .f32) (q : Fin 64) : biasRow b (ix2 (0 : Fin 1) q) = b (ix1 q) := by
  unfold biasRow
  exact shapeCast_a_1a_apply b _ (0 : Fin 1) q

end Cert.KernelIdeal.Hand

end
-- ==== Proof.KerValue.lean ====
/-
  The result buffer's final contents, read back through the program's five segments to the launch memory. Each host
  stretch is read once, over an arbitrary valuation: what it writes is a named function (`Hand.src`, `Hand.dst`,
  `Hand.agg`, `Hand.biasRow`, `Hand.pick`) of what it reads, and it leaves the other buffers alone. Each pipelined call
  leaves `GraphConv.rowsOut` of its entry arrays in its output array and nothing else changed. Composed: the result is
  the selected rows of the second layer's output, whose feature operand is the first layer's output.
-/
import proofs.«424615_j39058432590434_3_alg».proof.Proof.Gen.KernelIdeal.Frame
import proofs.«424615_j39058432590434_3_alg».proof.Proof.Chain
import proofs.«424615_j39058432590434_3_alg».proof.Proof.KerBlocks0
import proofs.«424615_j39058432590434_3_alg».proof.Proof.KerBlocks1
import proofs.«424615_j39058432590434_3_alg».proof.Proof.KerPayload
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

section Stretches

variable {F : FTy → Type} [FloatOps F]

/-- The neighbour sum over a source column and a destination column already cut out of the edge list. -/
def aggSD (feat : FVec F S100000x64 .f32) (s d : IVec S1600000 32) : FVec F S100000x64 .f32 :=
  Host.scatterAdd scatter_S100000x64_S1600000x1_S1600000x64_1_0_0_1
    (broadcastInDim S100000x64 ![] Facts₀.bcast_S_S100000x64 (constant S_ .f32 0x00000000#32))
    (broadcastInDim S1600000x1 ![0] Facts₀.bcast_S1600000_S1600000x1_0 d)
    (Host.gather gather_S100000x64_S1600000x1_S1600000x64_1_0_n_n_0_1_164 feat (wrapE s))

theorem agg_eq (feat : FVec F S100000x64 .f32) (ei : IVec S2x1600000 32) : agg feat ei = aggSD feat (src ei) (dst ei) := rfl

/-! ## The first stretch: the edge list's rows, the first neighbour sum, the first bias row -/

theorem s0_v1 (W : Valuation τ sig (Elt F)) : after hostOps0 W (Proc.devRef .tc main_v1) = src (W (Proc.devRef .tc main_arg1)) := by
  after_results; rfl
theorem s0_v3 (W : Valuation τ sig (Elt F)) : after hostOps0 W (Proc.devRef .tc main_v3) = dst (W (Proc.devRef .tc main_arg1)) := by
  after_results; rfl
theorem s0_v13 (W : Valuation τ sig (Elt F)) : after hostOps0 W (Proc.devRef .tc main_v13) = agg (W (Proc.devRef .tc main_arg0)) (W (Proc.devRef .tc main_arg1)) := by
  after_results; rfl
theorem s0_v14 (W : Valuation τ sig (Elt F)) : after hostOps0 W (Proc.devRef .tc main_v14) = biasRow (W (Proc.devRef .tc main_arg4)) := by
  after_results; rfl
theorem s0_main_arg0 (W : Valuation τ sig (Elt F)) : after hostOps0 W (Proc.devRef .tc main_arg0) = W (Proc.devRef .tc main_arg0) := by after_results
theorem s0_main_arg2 (W : Valuation τ sig (Elt F)) : after hostOps0 W (Proc.devRef .tc main_arg2) = W (Proc.devRef .tc main_arg2) := by after_results
theorem s0_main_arg3 (W : Valuation τ sig (Elt F)) : after hostOps0 W (Proc.devRef .tc main_arg3) = W (Proc.devRef .tc main_arg3) := by after_results
theorem s0_main_arg5 (W : Valuation τ sig (Elt F)) : after hostOps0 W (Proc.devRef .tc main_arg5) = W (Proc.devRef .tc main_arg5) := by after_results
theorem s0_main_arg6 (W : Valuation τ sig (Elt F)) : after hostOps0 W (Proc.devRef .tc main_arg6) = W (Proc.devRef .tc main_arg6) := by after_results
theorem s0_main_arg7 (W : Valuation τ sig (Elt F)) : after hostOps0 W (Proc.devRef .tc main_arg7) = W (Proc.devRef .tc main_arg7) := by after_results
theorem s0_main_arg8 (W : Valuation τ sig (Elt F)) : after hostOps0 W (Proc.devRef .tc main_arg8) = W (Proc.devRef .tc main_arg8) := by after_results

/-! ## The second stretch: the second neighbour sum, over the first call's output, and the second bias row -/

theorem s1_v25 (W : Valuation τ sig (Elt F)) : after hostOps1 W (Proc.devRef .tc main_v25) = aggSD (W (Proc.devRef .tc main_v15)) (W (Proc.devRef .tc main_v1)) (W (Proc.devRef .tc main_v3)) := by
  after_results; rfl
theorem s1_v26 (W : Valuation τ sig (Elt F)) : after hostOps1 W (Proc.devRef .tc main_v26) = biasRow (W (Proc.devRef .tc main_arg7)) := by
  after_results; rfl
theorem s1_main_v15 (W : Valuation τ sig (Elt F)) : after hostOps1 W (Proc.devRef .tc main_v15) = W (Proc.devRef .tc main_v15) := by after_results
theorem s1_main_arg2 (W : Valuation τ sig (Elt F)) : after hostOps1 W (Proc.devRef .tc main_arg2) = W (Proc.devRef .tc main_arg2) := by after_results
theorem s1_main_arg6 (W : Valuation τ sig (Elt F)) : after hostOps1 W (Proc.devRef .tc main_arg6) = W (Proc.devRef .tc main_arg6) := by after_results
theorem s1_main_arg8 (W : Valuation τ sig (Elt F)) : after hostOps1 W (Proc.devRef .tc main_arg8) = W (Proc.devRef .tc main_arg8) := by after_results

/-! ## The last stretch: the selected rows of the second call's output -/

theorem s2_v34 (W : Valuation τ sig (Elt F)) : after hostOps2 W (Proc.devRef .tc main_v34) = pick (W (Proc.devRef .tc main_v27)) (W (Proc.devRef .tc main_arg2)) := by
  after_results; rfl

end Stretches

/-! ## The whole program's result -/

/-- One layer as the kernel's program computes it: the dense half on the neighbour sum and the features. -/
def layerK [Cert.KernelIdeal.Facts] (feat : FVec Ideal S100000x64 .f32) (ei : IVec S2x1600000 32) (wrel : FVec Ideal S64x64 .f32)
    (b : FVec Ideal S64 .f32) (wroot : FVec Ideal S64x64 .f32) : FVec Ideal S100000x64 .f32 :=
  GraphConv.rowsOut (M := 100000) (agg feat ei) feat wrel (biasRow b) wroot

/-- The kernel program's result as one function of its nine arguments. -/
def outK [Cert.KernelIdeal.Facts] (x : FVec Ideal S100000x64 .f32) (ei : IVec S2x1600000 32) (bbox : IVec S4096 32)
    (w1rel : FVec Ideal S64x64 .f32) (b1 : FVec Ideal S64 .f32) (w1root : FVec Ideal S64x64 .f32)
    (w2rel : FVec Ideal S64x64 .f32) (b2 : FVec Ideal S64 .f32) (w2root : FVec Ideal S64x64 .f32) : FVec Ideal S4096x64 .f32 :=
  pick (layerK (layerK x ei w1rel b1 w1root) ei w2rel b2 w2root) bbox

variable (m : (ℓ : Loc nD τ sig) → Buf (Elt Ideal) ℓ) (ρ : Dev nD → PrngReg)

/-- An argument's buffer at the launch is the launch memory's. -/
theorem W0_at (c : Dev nD) (b : Ref sig .tc) : W0 m ρ c (Proc.devRef .tc b) = m ((c : Thread nD τ).loc b) := rfl

/-- At the first call's entry: its five input arrays. -/
theorem V1_v13 (c : Dev nD) : V1 m ρ c main_v13 = agg (F := Ideal) (m ((c : Thread nD τ).loc main_arg0)) (m ((c : Thread nD τ).loc main_arg1)) :=
  s0_v13 (W0 m ρ c)
theorem V1_arg0 (c : Dev nD) : V1 m ρ c main_arg0 = m ((c : Thread nD τ).loc main_arg0) := s0_main_arg0 (W0 m ρ c)
theorem V1_arg3 (c : Dev nD) : V1 m ρ c main_arg3 = m ((c : Thread nD τ).loc main_arg3) := s0_main_arg3 (W0 m ρ c)
theorem V1_v14 (c : Dev nD) : V1 m ρ c main_v14 = biasRow (F := Ideal) (m ((c : Thread nD τ).loc main_arg4)) := s0_v14 (W0 m ρ c)
theorem V1_arg5 (c : Dev nD) : V1 m ρ c main_arg5 = m ((c : Thread nD τ).loc main_arg5) := s0_main_arg5 (W0 m ρ c)

/-- The first call's output array: the first layer's output. -/
theorem W2_v15 (c : Dev nD) : W2 m ρ c (Proc.devRef .tc main_v15)
    = layerK (m ((c : Thread nD τ).loc main_arg0)) (m ((c : Thread nD τ).loc main_arg1)) (m ((c : Thread nD τ).loc main_arg3))
        (m ((c : Thread nD τ).loc main_arg4)) (m ((c : Thread nD τ).loc main_arg5)) := by
  refine (W2_arr m ρ c 5).trans ((arr0 (V1 m ρ) pay0_eq c).trans ?_)
  show GraphConv.rowsOut (M := 100000) (V1 m ρ c main_v13) (V1 m ρ c main_arg0) (V1 m ρ c main_arg3) (V1 m ρ c main_v14) (V1 m ρ c main_arg5) = _
  rw [V1_v13, V1_arg0, V1_arg3, V1_v14, V1_arg5]
  rfl

/-- A buffer the first call does not touch keeps, over the call, what the first stretch left in it. -/
theorem W2_v1 (c : Dev nD) : W2 m ρ c (Proc.devRef .tc main_v1) = src (m ((c : Thread nD τ).loc main_arg1)) :=
  (W2_of_ne m ρ c main_v1 (by decide)).trans (s0_v1 (W0 m ρ c))
theorem W2_v3 (c : Dev nD) : W2 m ρ c (Proc.devRef .tc main_v3) = dst (m ((c : Thread nD τ).loc main_arg1)) :=
  (W2_of_ne m ρ c main_v3 (by decide)).trans (s0_v3 (W0 m ρ c))
theorem W2_arg2 (c : Dev nD) : W2 m ρ c (Proc.devRef .tc main_arg2) = m ((c : Thread nD τ).loc main_arg2) :=
  (W2_of_ne m ρ c main_arg2 (by decide)).trans (s0_main_arg2 (W0 m ρ c))
theorem W2_arg6 (c : Dev nD) : W2 m ρ c (Proc.devRef .tc main_arg6) = m ((c : Thread nD τ).loc main_arg6) :=
  (W2_of_ne m ρ c main_arg6 (by decide)).trans (s0_main_arg6 (W0 m ρ c))
theorem W2_arg7 (c : Dev nD) : W2 m ρ c (Proc.devRef .tc main_arg7) = m ((c : Thread nD τ).loc main_arg7) :=
  (W2_of_ne m ρ c main_arg7 (by decide)).trans (s0_main_arg7 (W0 m ρ c))
theorem W2_arg8 (c : Dev nD) : W2 m ρ c (Proc.devRef .tc main_arg8) = m ((c : Thread nD τ).loc main_arg8) :=
  (W2_of_ne m ρ c main_arg8 (by decide)).trans (s0_main_arg8 (W0 m ρ c))

/-- At the second call's entry: its five input arrays. -/
theorem V3_v25 (c : Dev nD) : V3 m ρ c main_v25 = aggSD (F := Ideal) (W2 m ρ c (Proc.devRef .tc main_v15)) (W2 m ρ c (Proc.devRef .tc main_v1)) (W2 m ρ c (Proc.devRef .tc main_v3)) :=
  s1_v25 (W2 m ρ c)
theorem V3_v15 (c : Dev nD) : V3 m ρ c main_v15 = W2 m ρ c (Proc.devRef .tc main_v15) := s1_main_v15 (W2 m ρ c)
theorem V3_arg6 (c : Dev nD) : V3 m ρ c main_arg6 = m ((c : Thread nD τ).loc main_arg6) := (s1_main_arg6 (W2 m ρ c)).trans (W2_arg6 m ρ c)
theorem V3_v26 (c : Dev nD) : V3 m ρ c main_v26 = biasRow (F := Ideal) (m ((c : Thread nD τ).loc main_arg7)) :=
  (s1_v26 (W2 m ρ c)).trans (congrArg (biasRow (F := Ideal)) (W2_arg7 m ρ c))
theorem V3_arg8 (c : Dev nD) : V3 m ρ c main_arg8 = m ((c : Thread nD τ).loc main_arg8) := (s1_main_arg8 (W2 m ρ c)).trans (W2_arg8 m ρ c)

/-- The second call's output array: the second layer's output, over the first layer's. -/
theorem W4_v27 (c : Dev nD) : W4 m ρ c (Proc.devRef .tc main_v27)
    = layerK (layerK (m ((c : Thread nD τ).loc main_arg0)) (m ((c : Thread nD τ).loc main_arg1)) (m ((c : Thread nD τ).loc main_arg3))
          (m ((c : Thread nD τ).loc main_arg4)) (m ((c : Thread nD τ).loc main_arg5)))
        (m ((c : Thread nD τ).loc main_arg1)) (m ((c : Thread nD τ).loc main_arg6)) (m ((c : Thread nD τ).loc main_arg7)) (m ((c : Thread nD τ).loc main_arg8)) := by
  refine (W4_arr m ρ c 5).trans ((arr1 (V3 m ρ) pay1_eq c).trans ?_)
  show GraphConv.rowsOut (M := 100000) (V3 m ρ c main_v25) (V3 m ρ c main_v15) (V3 m ρ c main_arg6) (V3 m ρ c main_v26) (V3 m ρ c main_arg8) = _
  rw [V3_v25, V3_v15, V3_arg6, V3_v26, V3_arg8, W2_v15 m ρ c, W2_v1, W2_v3, ← agg_eq]
  rfl

theorem W4_arg2 (c : Dev nD) : W4 m ρ c (Proc.devRef .tc main_arg2) = m ((c : Thread nD τ).loc main_arg2) :=
  (W4_of_ne m ρ c main_arg2 (by decide)).trans ((s1_main_arg2 (W2 m ρ c)).trans (W2_arg2 m ρ c))

/-- THE RESULT: the last boundary's contents at the result's reference are `outK` of the launch memory's arguments. -/
theorem result_eq (c : Dev nD) : W5 m ρ c (Proc.devRef .tc main_v34)
    = outK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (s2_v34 (W4 m ρ c)).trans ?_
  rw [W4_v27 m ρ c, W4_arg2]
  rfl

end Cert.KernelIdeal.Hand

end
-- ==== Proof.RefRun.lean ====
/-
  The reference's run. Its @main is a straight line of host operations, except that the rectifier of each layer is a
  call of a module-local function which itself calls another (the select): a call executes the callee's body on the
  operands, so the line is @main's own operations with, at each of the two calls, the callee's six operations and the
  inner callee's one select over that call's buffers. Stated so, the run is the library's run of a straight line: every
  weakly fair execution terminates, and each buffer ends at the operations' fold over the contents at launch.
-/
import proofs.«424615_j39058432590434_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The reference's 67 operations in order: the edge list's two rows and the wrapped source column, the first layer
    (gather, scatter-add into zeros, the two products, the bias, their sum), the slope constant, the first rectifier's
    seven (zero, its broadcast, the comparison, the slope converted and broadcast, the scaled array, the select); the
    same for the second layer over the first's output; then the selected nodes' wrapped column and the final gather. -/
abbrev ops : List (HloOp τ sig (Elt F)) :=
  [ unary main_arg1 main_v0 (extractStridedSlice S1x1600000 ![0, 0] · slices_S2x1600000_S1x1600000_0_0),
    reshape main_v0 main_v1 rfl shapeCasts_S1x1600000_S1600000,
    unary main_arg1 main_v2 (extractStridedSlice S1x1600000 ![1, 0] · slices_S2x1600000_S1x1600000_1_0),
    reshape main_v2 main_v3 rfl shapeCasts_S1x1600000_S1600000,
    nullary main_c (constantI S_ 32 0#32),
    unary main_c main_v4 (broadcastInDim S1600000 ![] bcast_S_S1600000),
    binary main_v1 main_v4 main_v5 (cmpi .slt),
    nullary main_c_0 (constantI S_ 32 100000#32),
    unary main_c_0 main_v6 (broadcastInDim S1600000 ![] bcast_S_S1600000),
    binary main_v1 main_v6 main_v7 addi,
    ternary main_v5 main_v7 main_v1 main_v8 select,
    unary main_v8 main_v9 (broadcastInDim S1600000x1 ![0] bcast_S1600000_S1600000x1_0),
    binary main_arg0 main_v9 main_v10 (fun x i => Host.gather gather_S100000x64_S1600000x1_S1600000x64_1_0_n_n_0_1_164 x i),
    nullary main_cst (constant S_ .f32 0x00000000#32),
    unary main_cst main_v11 (broadcastInDim S100000x64 ![] bcast_S_S100000x64),
    unary main_v3 main_v12 (broadcastInDim S1600000x1 ![0] bcast_S1600000_S1600000x1_0),
    ternary main_v11 main_v12 main_v10 main_v13 (fun x i u => Host.scatterAdd scatter_S100000x64_S1600000x1_S1600000x64_1_0_0_1 x i u),
    binary main_v13 main_arg3 main_v14 (fun l r => Host.dotGeneral dot_S100000x64_S64x64_S100000x64_1_0_0_1_n_n none l r),
    unary main_arg4 main_v15 (broadcastInDim S1x64 ![1] bcast_S64_S1x64_1),
    unary main_v15 main_v16 (broadcastInDim S100000x64 ![0, 1] bcast_S1x64_S100000x64_0_1),
    binary main_v14 main_v16 main_v17 addf,
    binary main_arg0 main_arg5 main_v18 (fun l r => Host.dotGeneral dot_S100000x64_S64x64_S100000x64_1_0_0_1_n_n none l r),
    binary main_v17 main_v18 main_v19 addf,
    nullary main_cst_1 (constant S_ .f32 0x3C23D70A#32),
    TRef.nullary main_call0.cst (constant S_ .f32 0x00000000#32),
    TRef.unary main_call0.cst main_call0.v0 (broadcastInDim S100000x64 ![] bcast_S_S100000x64),
    TRef.binary (.of main_v19 : TRef sig ⟨S100000x64, .f32⟩) main_call0.v0 main_call0.v1 (cmpf .oge),
    TRef.unary (.of main_cst_1 : TRef sig ⟨S_, .f32⟩) main_call0.v2 id,
    TRef.unary main_call0.v2 main_call0.v3 (broadcastInDim S100000x64 ![] bcast_S_S100000x64),
    TRef.binary main_call0.v3 (.of main_v19 : TRef sig ⟨S100000x64, .f32⟩) main_call0.v4 mulf,
    TRef.ternary main_call0.v1 (.of main_v19 : TRef sig ⟨S100000x64, .f32⟩) main_call0.v4 main_call0.call0.v0 select,
    nullary main_c_2 (constantI S_ 32 0#32),
    unary main_c_2 main_v21 (broadcastInDim S1600000 ![] bcast_S_S1600000),
    binary main_v1 main_v21 main_v22 (cmpi .slt),
    nullary main_c_3 (constantI S_ 32 100000#32),
    unary main_c_3 main_v23 (broadcastInDim S1600000 ![] bcast_S_S1600000),
    binary main_v1 main_v23 main_v24 addi,
    ternary main_v22 main_v24 main_v1 main_v25 select,
    unary main_v25 main_v26 (broadcastInDim S1600000x1 ![0] bcast_S1600000_S1600000x1_0),
    binary main_v20 main_v26 main_v27 (fun x i => Host.gather gather_S100000x64_S1600000x1_S1600000x64_1_0_n_n_0_1_164 x i),
    nullary main_cst_4 (constant S_ .f32 0x00000000#32),
    unary main_cst_4 main_v28 (broadcastInDim S100000x64 ![] bcast_S_S100000x64),
    unary main_v3 main_v29 (broadcastInDim S1600000x1 ![0] bcast_S1600000_S1600000x1_0),
    ternary main_v28 main_v29 main_v27 main_v30 (fun x i u => Host.scatterAdd scatter_S100000x64_S1600000x1_S1600000x64_1_0_0_1 x i u),
    binary main_v30 main_arg6 main_v31 (fun l r => Host.dotGeneral dot_S100000x64_S64x64_S100000x64_1_0_0_1_n_n none l r),
    unary main_arg7 main_v32 (broadcastInDim S1x64 ![1] bcast_S64_S1x64_1),
    unary main_v32 main_v33 (broadcastInDim S100000x64 ![0, 1] bcast_S1x64_S100000x64_0_1),
    binary main_v31 main_v33 main_v34 addf,
    binary main_v20 main_arg8 main_v35 (fun l r => Host.dotGeneral dot_S100000x64_S64x64_S100000x64_1_0_0_1_n_n none l r),
    binary main_v34 main_v35 main_v36 addf,
    nullary main_cst_5 (constant S_ .f32 0x3C23D70A#32),
    TRef.nullary main_call1.cst (constant S_ .f32 0x00000000#32),
    TRef.unary main_call1.cst main_call1.v0 (broadcastInDim S100000x64 ![] bcast_S_S100000x64),
    TRef.binary (.of main_v36 : TRef sig ⟨S100000x64, .f32⟩) main_call1.v0 main_call1.v1 (cmpf .oge),
    TRef.unary (.of main_cst_5 : TRef sig ⟨S_, .f32⟩) main_call1.v2 id,
    TRef.unary main_call1.v2 main_call1.v3 (broadcastInDim S100000x64 ![] bcast_S_S100000x64),
    TRef.binary main_call1.v3 (.of main_v36 : TRef sig ⟨S100000x64, .f32⟩) main_call1.v4 mulf,
    TRef.ternary main_call1.v1 (.of main_v36 : TRef sig ⟨S100000x64, .f32⟩) main_call1.v4 main_call1.call0.v0 select,
    nullary main_c_6 (constantI S_ 32 0#32),
    unary main_c_6 main_v38 (broadcastInDim S4096 ![] bcast_S_S4096),
    binary main_arg2 main_v38 main_v39 (cmpi .slt),
    nullary main_c_7 (constantI S_ 32 100000#32),
    unary main_c_7 main_v40 (broadcastInDim S4096 ![] bcast_S_S4096),
    binary main_arg2 main_v40 main_v41 addi,
    ternary main_v39 main_v41 main_arg2 main_v42 select,
    unary main_v42 main_v43 (broadcastInDim S4096x1 ![0] bcast_S4096_S4096x1_0),
    binary main_v37 main_v43 main_v44 (fun x i => Host.gather gather_S100000x64_S4096x1_S4096x64_1_0_n_n_0_1_164 x i) ]

-- sixty-seven binds re-associated: the rewrite under the chain recurses once per statement
set_option maxRecDepth 2048 in
/-- @main is that straight line: the two functions' definitions unfolded at their calls and the records at their
    fields, both sides are one chain of steps once sequencing is re-associated. -/
theorem main_eq (c : Dev nD) : main (F := F) c = seq ops := by
  simp only [main, fn_leaky_relu.body, fn_where.body, seq, bind_assoc, pure_bind]
  rfl

/-- The signature scopes no buffer. -/
theorem scopedRefs_eq : (Finset.univ.filter fun b : Ref sig .tc => b.isScoped) = ∅ := by decide
/-- The signature has no semaphore, so scopes none. -/
theorem scopedSems_eq : (Finset.univ.filter fun sm : SemLoc sig => sm.isScoped .tc) = ∅ := by decide

/-- Every operation touches only the TensorCore's references: each is one of the builders, which always do. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    unary_bufs_sub .., unary_bufs_sub .., binary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., binary_bufs_sub ..,
    binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub .., nullary_bufs_sub .., unary_bufs_sub .., binary_bufs_sub ..,
    ternary_bufs_sub .., unary_bufs_sub .., binary_bufs_sub ..⟩

/-- At the compiled mesh, for any float values, from any memory with zero counters: every weakly fair execution of
    @main terminates, and every final state has each buffer at the operations' fold over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefTerm.lean ====
/-
  The host operations the reference applies around its dense products, each as ONE named function of the
  arrays it reads: the two rows of the edge list (`src`, `dst`), an index column with negative entries wrapped by the
  node count (`wrapE`, `wrapB`), the neighbour sum `agg` (gather the source rows, scatter-add them at the destinations
  into zeros) and the final row selection `pick`. Nothing here is opened by the proof: both programs apply the same
  operations, so only the arrays going in are compared.
-/
import proofs.«424615_j39058432590434_3_alg».proof.ReferenceIdeal

noncomputable section

namespace Cert.ReferenceIdeal.Hand

open Cert.ReferenceIdeal Idealize.ShloMosaic Idealize.ShloMosaic.TcCoe Idealize.SL.Sem

variable {F : FTy → Type} [FloatOps F] [hP : Cert.ReferenceIdeal.Facts]
open Cert.ReferenceIdeal.Facts₀ Cert.ReferenceIdeal.Facts

/-- The edge list's first row: the source node of every edge. -/
def src (ei : IVec S2x1600000 32) : IVec S1600000 32 :=
  shapeCast S1600000 (extractStridedSlice S1x1600000 ![0, 0] ei slices_S2x1600000_S1x1600000_0_0) shapeCasts_S1x1600000_S1600000

/-- The edge list's second row: the destination node of every edge. -/
def dst (ei : IVec S2x1600000 32) : IVec S1600000 32 :=
  shapeCast S1600000 (extractStridedSlice S1x1600000 ![1, 0] ei slices_S2x1600000_S1x1600000_1_0) shapeCasts_S1x1600000_S1600000

/-- A column of edge indices, a negative one moved up by the node count. -/
def wrapE (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- A column of the selected nodes' indices, a negative one moved up by the node count. -/
def wrapB (idx : IVec S4096 32) : IVec S4096x1 32 :=
  broadcastInDim S4096x1 ![0] bcast_S4096_S4096x1_0
    (select (cmpi .slt idx (broadcastInDim S4096 ![] bcast_S_S4096 (constantI S_ 32 0#32)))
      (addi idx (broadcastInDim S4096 ![] bcast_S_S4096 (constantI S_ 32 100000#32))) idx)

/-- The neighbour sum: row `n` is the sum of `feat`'s rows at the sources of the edges that end at `n`. -/
def agg (feat : FVec F S100000x64 .f32) (ei : IVec S2x1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dst ei))
    (Host.gather gather_S100000x64_S1600000x1_S1600000x64_1_0_n_n_0_1_164 feat (wrapE (src ei)))

/-- The rows of `h` at the selected nodes. -/
def pick (h : FVec F S100000x64 .f32) (bbox : IVec S4096 32) : FVec F S4096x64 .f32 :=
  Host.gather gather_S100000x64_S4096x1_S4096x64_1_0_n_n_0_1_164 h (wrapB bbox)

/-- A bias vector as one row. -/
def biasRow (b : FVec F S64 .f32) : FVec F S1x64 .f32 := broadcastInDim S1x64 ![1] bcast_S64_S1x64_1 b

/-- One layer's dense half as the reference spells it: two whole-array products, the bias broadcast down the rows,
    the rectifier as a comparison with zero and a select. -/
def denseR (a feat : FVec F S100000x64 .f32) (wrel : FVec F S64x64 .f32) (b : FVec F S64 .f32) (wroot : FVec F S64x64 .f32) :
    FVec F S100000x64 .f32 :=
  select
    (cmpf .oge
      (addf (addf (Host.dotGeneral dot_S100000x64_S64x64_S100000x64_1_0_0_1_n_n none a wrel)
          (broadcastInDim S100000x64 ![0, 1] bcast_S1x64_S100000x64_0_1 (biasRow b)))
        (Host.dotGeneral dot_S100000x64_S64x64_S100000x64_1_0_0_1_n_n none feat wroot))
      (broadcastInDim S100000x64 ![] bcast_S_S100000x64 (constant S_ .f32 0x00000000#32)))
    (addf (addf (Host.dotGeneral dot_S100000x64_S64x64_S100000x64_1_0_0_1_n_n none a wrel)
        (broadcastInDim S100000x64 ![0, 1] bcast_S1x64_S100000x64_0_1 (biasRow b)))
      (Host.dotGeneral dot_S100000x64_S64x64_S100000x64_1_0_0_1_n_n none feat wroot))
    (mulf (broadcastInDim S100000x64 ![] bcast_S_S100000x64 (id (constant S_ .f32 0x3C23D70A#32)))
      (addf (addf (Host.dotGeneral dot_S100000x64_S64x64_S100000x64_1_0_0_1_n_n none a wrel)
          (broadcastInDim S100000x64 ![0, 1] bcast_S1x64_S100000x64_0_1 (biasRow b)))
        (Host.dotGeneral dot_S100000x64_S64x64_S100000x64_1_0_0_1_n_n none feat wroot)))

/-- One whole layer of the reference. -/
def layerR (feat : FVec F S100000x64 .f32) (ei : IVec S2x1600000 32) (wrel : FVec F S64x64 .f32) (b : FVec F S64 .f32)
    (wroot : FVec F S64x64 .f32) : FVec F S100000x64 .f32 :=
  denseR (agg feat ei) feat wrel b wroot

/-- The reference's result as one function of its nine arguments. -/
def outR (x : FVec F S100000x64 .f32) (ei : IVec S2x1600000 32) (bbox : IVec S4096 32)
    (w1rel : FVec F S64x64 .f32) (b1 : FVec F S64 .f32) (w1root : FVec F S64x64 .f32)
    (w2rel : FVec F S64x64 .f32) (b2 : FVec F S64 .f32) (w2root : FVec F S64x64 .f32) : FVec F S4096x64 .f32 :=
  pick (layerR (layerR x ei w1rel b1 w1root) ei w2rel b2 w2root) bbox

end Cert.ReferenceIdeal.Hand

end
-- ==== Proof.RefValue.lean ====
/-
  What the reference's run leaves in its buffers, read back: the result buffer holds the reference's value as ONE
  function of the nine arguments (two layers of neighbour sum, two products, bias and rectifier, then the selected
  rows), and each argument's buffer is unchanged. Both are computations: the fold over the line of operations is
  unrolled, each operation either writes the buffer looked up (then its function's value at the operands' contents,
  looked up in turn) or leaves it, and which is decided on the literal references.
-/
import proofs.«424615_j39058432590434_3_alg».proof.Proof.RefRun
import proofs.«424615_j39058432590434_3_alg».proof.Proof.RefTerm

noncomputable section

namespace Cert.ReferenceIdeal.HandValue

open Cert.ReferenceIdeal Cert.ReferenceIdeal.Gen Cert.ReferenceIdeal.Hand Cert.ReferenceIdeal.HandRun Idealize.ShloMosaic
  Idealize.ShloMosaic.TcCoe Idealize.SL.Sem Idealize.ShloMosaic.StableHlo

variable {F : FTy → Type} [FloatOps F]

attribute [local irreducible] Host.gather Host.scatterAdd in
set_option maxRecDepth 8192 in
set_option maxHeartbeats 400000 in
/-- The fold at the result buffer is the reference's value. First the fold is unrolled and every lookup resolved, each
    distinct (valuation, buffer) pair once: an operation's result at its own buffer is its function's value at the
    operands' contents, at any other buffer what was there, the two buffers told apart as literal references. What
    is left is an equation between two spellings of one composed term, closed by computation: a value passed through a
    call is carried along an equation between equal buffer types, a reshape along one between equal element types,
    and the slope's conversion is the identity function, all of which compute away. The gather and the scatter-add
    are kept folded meanwhile: the equation never looks inside them, since both sides apply them to the same arrays
    (the dense product is a field of the float structure, with nothing to unfold). -/
theorem out_eq (V : Valuation τ sig (Elt F)) :
    after ops V (main_v44 : DevRef τ sig)
      = outR (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

/-! No operation writes an argument's buffer, so each keeps its contents through the whole line. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem arg8_eq (V : Valuation τ sig (Elt F)) :
    after ops V (main_arg8 : DevRef τ sig) = V (main_arg8 : DevRef τ sig) := by
  simp only [after_cons, after_nil]
  rfl

/-- At the compiled mesh, for any float values, from any memory with zero counters: every weakly fair execution of the
    reference terminates with the result buffer at the reference's value of the arguments' contents at launch, and the
    arguments' buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44)
          = outR (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c main_v44).trans (out_eq _),
       (h c main_arg0).trans (arg0_eq _),
       (h c main_arg1).trans (arg1_eq _),
       (h c main_arg2).trans (arg2_eq _),
       (h c main_arg3).trans (arg3_eq _),
       (h c main_arg4).trans (arg4_eq _),
       (h c main_arg5).trans (arg5_eq _),
       (h c main_arg6).trans (arg6_eq _),
       (h c main_arg7).trans (arg7_eq _),
       (h c main_arg8).trans (arg8_eq _)⟩)
    (run_main m ρ)

end Cert.ReferenceIdeal.HandValue

end
-- ==== Proof.RefDense.lean ====
/-
  The reference's dense half of a GraphConv layer, read entry by entry on the extended reals: two whole-array plain
  products, the bias broadcast down the rows between them, and the leaky rectifier as a comparison with a broadcast
  zero, a product with the broadcast slope and a select — the same function of the operands as the layer's dense half
  on all hundred thousand rows.
-/
import proofs.«424615_j39058432590434_3_alg».proof.Proof.RefTerm
import proofs.«424615_j39058432590434_3_alg».proof.Proof.Dense
import proofs.«424615_j39058432590434_3_alg».proof.Proof.LibPlainMatmul
import Idealize.ShloMosaic.Lib.Pipeline.Value
import Idealize.ShloMosaic.Lib.StackMember

noncomputable section

namespace Cert.ReferenceIdeal.Hand

open Cert.ReferenceIdeal Idealize.ShloMosaic Idealize.ShloMosaic.ValueIdx Idealize.SL.Sem

variable [hP : Cert.ReferenceIdeal.Facts]
open Cert.ReferenceIdeal.Facts₀ Cert.ReferenceIdeal.Facts

/-- The bias vector as one row reads, at `(0, q)`, the vector at `q`. -/
theorem biasRow_apply (b : FVec Ideal S64 .f32) (q : Fin 64) : biasRow b (ix2 (0 : Fin 1) q) = b (ix1 q) := by
  unfold biasRow
  refine broadcastInDim_apply _ _ b (ix2 (0 : Fin 1) q) (ix1 q) fun ax => ?_
  match ax with
  | ⟨0, _⟩ => rfl

/-- A one-row array broadcast down the hundred thousand rows reads, at `(p, q)`, the row's entry `q`. -/
theorem rowDown_apply (r : FVec Ideal S1x64 .f32) (p : Fin 100000) (q : Fin 64) :
    broadcastInDim S100000x64 ![0, 1] bcast_S1x64_S100000x64_0_1 r (ix2 p q) = r (ix2 (0 : Fin 1) q) := by
  refine broadcastInDim_apply _ _ r (ix2 p q) (ix2 (0 : Fin 1) q) fun ax => ?_
  match ax with
  | ⟨0, _⟩ => rfl
  | ⟨1, _⟩ => rfl

/-- The sum before the rectifier, as the reference spells it, at entry `(p, q)`: the aggregated row times the
    relation weights, plus the bias row's entry `q`, plus the node's row times the root weights. -/
theorem preSum_apply (a feat : FVec Ideal S100000x64 .f32) (wrel wroot : FVec Ideal S64x64 .f32)
    (r : FVec Ideal S1x64 .f32) (p : Fin 100000) (q : Fin 64) :
    addf (addf (Host.dotGeneral dot_S100000x64_S64x64_S100000x64_1_0_0_1_n_n none a wrel)
          (broadcastInDim S100000x64 ![0, 1] bcast_S1x64_S100000x64_0_1 r))
        (Host.dotGeneral dot_S100000x64_S64x64_S100000x64_1_0_0_1_n_n none feat wroot) (ix2 p q)
      = GraphConv.pre (M := 100000) a feat wrel r wroot p q := by
  unfold GraphConv.pre
  rw [addf_apply, addf_apply, rowDown_apply r p q]
  exact congrArg₂ (fun x y => x + r (ix2 (0 : Fin 1) q) + y)
    (PlainMatmul.dotGeneral_lists_apply dot_S100000x64_S64x64_S100000x64_1_0_0_1_n_n_wf none a wrel p q)
    (PlainMatmul.dotGeneral_lists_apply dot_S100000x64_S64x64_S100000x64_1_0_0_1_n_n_wf none feat wroot p q)

/-- The rectifier as the reference spells it — compare with a broadcast zero scalar, multiply by the broadcast slope
    scalar, select — at an entry is `leak` of the entry. -/
theorem leakVec_apply (t : FVec Ideal S100000x64 .f32) (i : S100000x64.Idx) :
    select (cmpf .oge t (broadcastInDim S100000x64 ![] bcast_S_S100000x64 (constant (F := Ideal) S_ .f32 0x00000000#32))) t
        (mulf (broadcastInDim S100000x64 ![] bcast_S_S100000x64 (id (constant (F := Ideal) S_ .f32 0x3C23D70A#32))) t) i
      = GraphConv.leak (t i) := rfl

/-- THE REFERENCE'S DENSE HALF is the layer's dense half on all rows, with the bias vector as one row. -/
theorem denseR_eq (a feat : FVec Ideal S100000x64 .f32) (wrel wroot : FVec Ideal S64x64 .f32) (b : FVec Ideal S64 .f32) :
    denseR a feat wrel b wroot = GraphConv.rowsOut (M := 100000) a feat wrel (biasRow b) wroot := by
  funext i
  obtain ⟨p, q, rfl⟩ : ∃ (p : Fin 100000) (q : Fin 64), i = ix2 p q := ⟨i 0, i 1, eq_ix2 i⟩
  rw [GraphConv.rowsOut_apply, ← preSum_apply a feat wrel wroot (biasRow b) p q, ← leakVec_apply]
  rfl

end Cert.ReferenceIdeal.Hand

end
-- ==== Proof.Bridge.lean ====
/-
  The reference's result and the kernel program's result are ONE function of the nine arguments, on the extended
  reals. The operations around the dense products are the same on both sides (equal by unfolding the two programs'
  records of the same dimension numbers); the bias row is the bias vector laid out as one row whether by a reshape or
  by a broadcast; and the reference's dense half — two whole products, a broadcast bias, a compare-and-select — is
  `GraphConv.rowsOut`, which is what each pipelined call leaves. So layer by layer the two sides agree.
-/
import proofs.«424615_j39058432590434_3_alg».proof.Proof.Gen.KernelIdeal
import proofs.«424615_j39058432590434_3_alg».proof.Proof.Gen.ReferenceIdeal
import proofs.«424615_j39058432590434_3_alg».proof.Proof.KerValue
import proofs.«424615_j39058432590434_3_alg».proof.Proof.KerPayload
import proofs.«424615_j39058432590434_3_alg».proof.Proof.RefDense

noncomputable section

namespace Cert.Proof.Bridge

open Idealize.ShloMosaic Idealize.ShloMosaic.ValueIdx

abbrev SN : Shape := ⟨2, ![100000, 64]⟩
abbrev SE : Shape := ⟨2, ![2, 1600000]⟩
abbrev SW : Shape := ⟨2, ![64, 64]⟩
abbrev SV : Shape := ⟨1, ![64]⟩
abbrev SB : Shape := ⟨1, ![4096]⟩

/-- The neighbour sums are the same operations on both sides. -/
theorem agg_eq (feat : FVec Ideal SN .f32) (ei : IVec SE 32) :
    Cert.ReferenceIdeal.Hand.agg (F := Ideal) feat ei = Cert.KernelIdeal.Hand.agg (F := Ideal) feat ei := rfl

/-- The final row selections are the same operations on both sides. -/
theorem pick_eq (h : FVec Ideal SN .f32) (bbox : IVec SB 32) :
    Cert.ReferenceIdeal.Hand.pick (F := Ideal) h bbox = Cert.KernelIdeal.Hand.pick (F := Ideal) h bbox := rfl

/-- The bias as one row: the broadcast along a new leading axis and the reshape read the same entries. -/
theorem biasRow_eq (b : FVec Ideal SV .f32) :
    Cert.ReferenceIdeal.Hand.biasRow (F := Ideal) b = Cert.KernelIdeal.Hand.biasRow (F := Ideal) b := by
  funext y
  obtain ⟨p, q, rfl⟩ : ∃ (p : Fin 1) (q : Fin 64), y = ix2 p q := ⟨y 0, y 1, eq_ix2 y⟩
  obtain rfl : p = 0 := Subsingleton.elim _ _
  exact (Cert.ReferenceIdeal.Hand.biasRow_apply b q).trans (Cert.KernelIdeal.Hand.biasRow_apply b q).symm

/-- One layer: the reference's spelling is the kernel program's. -/
theorem layer_eq (feat : FVec Ideal SN .f32) (ei : IVec SE 32) (wrel : FVec Ideal SW .f32) (b : FVec Ideal SV .f32)
    (wroot : FVec Ideal SW .f32) :
    Cert.ReferenceIdeal.Hand.layerR (F := Ideal) feat ei wrel b wroot = Cert.KernelIdeal.Hand.layerK feat ei wrel b wroot := by
  unfold Cert.ReferenceIdeal.Hand.layerR Cert.KernelIdeal.Hand.layerK
  rw [Cert.ReferenceIdeal.Hand.denseR_eq, agg_eq, biasRow_eq]

/-- The whole programs. -/
theorem out_eq (x : FVec Ideal SN .f32) (ei : IVec SE 32) (bbox : IVec SB 32)
    (w1rel : FVec Ideal SW .f32) (b1 : FVec Ideal SV .f32) (w1root : FVec Ideal SW .f32)
    (w2rel : FVec Ideal SW .f32) (b2 : FVec Ideal SV .f32) (w2root : FVec Ideal SW .f32) :
    Cert.ReferenceIdeal.Hand.outR (F := Ideal) x ei bbox w1rel b1 w1root w2rel b2 w2root
      = Cert.KernelIdeal.Hand.outK x ei bbox w1rel b1 w1root w2rel b2 w2root := by
  unfold Cert.ReferenceIdeal.Hand.outR Cert.KernelIdeal.Hand.outK
  rw [layer_eq, layer_eq, pick_eq]

end Cert.Proof.Bridge

end
-- ==== Proof.lean ====
/-
  A two-layer graph convolution, each layer `leaky (agg(h)·W_rel + b + h·W_root)` with `agg` the sum of the neighbours'
  rows, and the rows of the second layer's output at the selected nodes. The kernel's program leaves the gather and the
  scatter-add on the host and computes each layer's dense half and rectifier in a pipelined call tiled over blocks of
  10000 rows; the reference computes everything on the host over the whole arrays. On the extended reals both are one
  function of the nine arguments: a row of the dense half needs only that row of its operands, the contraction over the
  64 features is complete inside every block, and the host operations around the calls are the same on both sides.
  Nothing here needs the inputs to be finite: no law beyond reading both sides at an index is used.

  The three frames: the kernel's two are the generated ones; the reference's is its run with the result dropped. The
  idealization changed nothing in the kernel (`preserves` is `True`). The equivalence: the kernel program's run ends
  with the result buffer at the last boundary's contents (`Gen.run_result`), which read back through the segments are
  `Hand.outK` of the arguments (`Hand.result_eq`); the reference's run ends at `Hand.outR` of the arguments
  (`HandValue.run`); and `outR = outK` (`Bridge.out_eq`).
-/
import proofs.«424615_j39058432590434_3_alg».proof.Defs
import proofs.«424615_j39058432590434_3_alg».proof.Proof.Gen.Kernel
import proofs.«424615_j39058432590434_3_alg».proof.Proof.Gen.Kernel.Skeleton
import proofs.«424615_j39058432590434_3_alg».proof.Proof.Gen.Kernel.Launch
import proofs.«424615_j39058432590434_3_alg».proof.Proof.Gen.Kernel.Points
import proofs.«424615_j39058432590434_3_alg».proof.Proof.Gen.Kernel.Frame
import proofs.«424615_j39058432590434_3_alg».proof.Proof.Gen.KernelIdeal
import proofs.«424615_j39058432590434_3_alg».proof.Proof.Gen.KernelIdeal.Skeleton
import proofs.«424615_j39058432590434_3_alg».proof.Proof.Gen.KernelIdeal.Launch
import proofs.«424615_j39058432590434_3_alg».proof.Proof.Gen.KernelIdeal.Points
import proofs.«424615_j39058432590434_3_alg».proof.Proof.Gen.KernelIdeal.Frame
import proofs.«424615_j39058432590434_3_alg».proof.Proof.Gen.ReferenceIdeal
import proofs.«424615_j39058432590434_3_alg».proof.Proof.Gen.Pre_finite_inputs
import proofs.«424615_j39058432590434_3_alg».proof.Proof.KerRun
import proofs.«424615_j39058432590434_3_alg».proof.Proof.KerValue
import proofs.«424615_j39058432590434_3_alg».proof.Proof.KerPayload
import proofs.«424615_j39058432590434_3_alg».proof.Proof.RefValue
import proofs.«424615_j39058432590434_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.HandValue.run (F := Ideal) m ρ)

/-- Both programs end with the result at one function of arguments that agree. -/
theorem algebraic : Cert.algebraic_KernelIdeal_ReferenceIdeal := by
  intro m ρ m' ρ' _ hagree
  refine ⟨fun c => Cert.KernelIdeal.Hand.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun _ h c => ⟨(h c).1.trans ?_, (h c).2⟩)
      (Cert.KernelIdeal.Gen.run_result (F := Ideal) m ρ)
    exact Cert.KernelIdeal.Hand.result_eq m ρ c
  · refine (θ_run Cert.ReferenceIdeal.defs _ _).mono (fun _ h c => ⟨(h c).1.trans ?_, (h c).2⟩)
      (Cert.ReferenceIdeal.HandValue.run (F := Ideal) m' ρ')
    obtain ⟨e0, e1, e2, e3, e4, e5, e6, e7, e8⟩ := hagree c
    rw [e0, e1, e2, e3, e4, e5, e6, e7, e8]
    exact Cert.Proof.Bridge.out_eq _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
